-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4x2048x4096 .f32) (main_arg2 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x4096 .f32 := Host.absf main_arg1
  let main_cst_0 : FVec F S_ .f32 := constant S_ .f32 0x7F800000#32
  let main_v5 : FVec F S4x2048x4096 .f32 := broadcastInDim S4x2048x4096 ![] bcast_S_S4x2048x4096 main_cst_0
  let main_v6 : IVec S4x2048x4096 1 := cmpf .olt main_v4 main_v5
  let main_c_1 : IVec S_ 1 := constantI S_ 1 1#1
  let main_v7 : IVec S_ 1 := (fun x v => Host.reduce IntOp.andi x v reducesTo_S4x2048x4096_S_d0_1_2 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S1x512x512 : Shape := ⟨3, ![1, 512, 512]⟩
abbrev S512x1024 : Shape := ⟨2, ![512, 1024]⟩
abbrev S1x512x1024 : Shape := ⟨3, ![1, 512, 1024]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4096x4096, .f32⟩
  | .hbm, ⟨3, _⟩ => ⟨S4x2048x4096, .f32⟩
  | .local _ .vmem, ⟨0, _⟩ => ⟨S1x512x512, .f32⟩
  | .local _ .vmem, ⟨1, _⟩ => ⟨S1x512x512, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 4, 4, 8], ![false, false, false, false]⟩

def k0_cond2 (i : grid0.Coords) : BitVec 1 :=
  let arg3 : BitVec 32 := BitVec.ofNat 32 (i 3).val
  let c7_i32 : BitVec 32 := 7#32
  let v14 : BitVec 1 := Scalar.cmpi .eq arg3 c7_i32
  let v15 : BitVec 32 := Scalar.extui v14
  let c0_i32_9 : BitVec 32 := 0#32
  let v16 : BitVec 1 := Scalar.cmpi .ne v15 c0_i32_9
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x2048x4096.size a
  hwx0_0 : ∀ i : grid0.Coords, EltTy.bits .f32 = 32 ∨ (Rect.block (s := S4x2048x4096) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x2048x4096.size a
  hwx0_2 : ∀ i : grid0.Coords, EltTy.bits .f32 = 32 ∨ (Rect.block (s := S4x2048x4096) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S4x2048x4096.size a
  hwx0_3 : ∀ i : grid0.Coords, EltTy.bits .f32 = 32 ∨ (Rect.block (s := S4x2048x4096) S1x512x1024.size (cc0_transform_3 i) (hinb0_3 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4096x4096, .f32⟩
  | .hbm, ⟨3, _⟩ => ⟨S4x2048x4096, .f32⟩
  | .hbm, ⟨4, _⟩ => ⟨S_, .f32⟩
  | .hbm, ⟨5, _⟩ => ⟨S4x2048x4096, .f32⟩
  | .hbm, ⟨6, _⟩ => ⟨S4x2048x4096, .i1⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S_, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .i1⟩
  | .hbm, ⟨18, _⟩ => ⟨S4x2048x4096, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S_, .f32⟩
  | .hbm, ⟨29, _⟩ => ⟨S4x2048x4096, .f32⟩
  | .hbm, ⟨30, _⟩ => ⟨S4x2048x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x2048x4096, .f32⟩
  | .hbm, ⟨35, _⟩ => ⟨S4x2048x4096, .f32⟩
  | .hbm, ⟨36, _⟩ => ⟨S_, .f32⟩
  | .hbm, ⟨37, _⟩ => ⟨S4x2048x4096, .f32⟩
  | .hbm, ⟨38, _⟩ => ⟨S4x2048x4096, .f32⟩
  | .hbm, ⟨39, _⟩ => ⟨S4x2048x4096, .f32⟩
  | .hbm, ⟨40, _⟩ => ⟨S_, .f32⟩
  | .hbm, ⟨41, _⟩ => ⟨S4x2048x4096, .f32⟩
  | .hbm, ⟨42, _⟩ => ⟨S4x2048x4096, .f32⟩
  | .hbm, ⟨43, _⟩ => ⟨S_, .f32⟩
  | .hbm, ⟨44, _⟩ => ⟨S4x2048x4096, .f32⟩
  | .hbm, ⟨45, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call1_cst : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_cst_3 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v12 : Ref sig .tc := ⟨.hbm, 38, rfl⟩
abbrev main_v13 : Ref sig .tc := ⟨.hbm, 39, rfl⟩
abbrev main_cst_4 : Ref sig .tc := ⟨.hbm, 40, rfl⟩
abbrev main_v14 : Ref sig .tc := ⟨.hbm, 41, rfl⟩
abbrev main_v15 : Ref sig .tc := ⟨.hbm, 42, rfl⟩
abbrev main_cst_5 : Ref sig .tc := ⟨.hbm, 43, rfl⟩
abbrev main_v16 : Ref sig .tc := ⟨.hbm, 44, rfl⟩
abbrev main_v17 : Ref sig .tc := ⟨.hbm, 45, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x4096_S4x2048x4096_2_0_01_1_n_n_wf : DotDims.WF S4x2048x4096 S4096x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.Spec.lean ====
/-
  The mathematics of the certificate, with no program in sight.

  Both programs compute, at every output index (b, r, c) of f32[4, 2048, 4096],

      epi (∑ k < 4096, x[b, r, k] · w[k, c]) (y[b, r, c])

  on the extended reals, where `epi a y` is the pointwise tail: LeakyReLU with slope f32(0.01), the addition
  of `y`, Mish (`v · tanh (softplus v)`, softplus spelt `max v 0 + log1p (exp (-|v|))` behind a NaN guard
  `v ≠ v` that never fires on the extended reals), and HardSwish `h · min 6 (max 0 (h + 3)) · f32(1/6)` plus
  one half.  The float literals stay as the words both programs print; none is evaluated except the zero.

  Two laws join the two sides.  The kernel spells the guard with the ordered comparison and `-|v|` as
  `0 - |v|`: the same extended reals (`epiK_eq`).  And the kernel contracts the 4096 positions in eight
  consecutive runs of 512, adding the runs up from zero: addition on the extended reals is commutative and
  associative, so the eight partial sums regroup into the whole sum (`sum_runs`); no finiteness is used.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Spec

open Idealize.ShloMosaic Idealize.ShloMosaic.ValueIdx

/-- The shape of `x`, `y` and the result, and of `w`. -/
abbrev SX : Shape := ⟨3, ![4, 2048, 4096]⟩
abbrev SW : Shape := ⟨2, ![4096, 4096]⟩

/-- LeakyReLU: `a` where `a ≥ 0`, else `f32(0.01) · a`. -/
def leaky (a : EReal) : EReal :=
  Scalar.select (Ideal.cmp .oge a (Ideal.ofBits .f32 0x00000000#32)) a (Ideal.ofBits .f32 0x3C23D70A#32 * a)

/-- softplus as jax spells it: `max v 0 + log1p (exp (-|v - 0|))`, behind the guard `v - 0 ≠ v - 0`. -/
def softplus (v : EReal) : EReal :=
  Scalar.select (Ideal.cmp .une (v - Ideal.ofBits .f32 0x00000000#32) (v - Ideal.ofBits .f32 0x00000000#32))
    (v + Ideal.ofBits .f32 0x00000000#32)
    (max v (Ideal.ofBits .f32 0x00000000#32)
      + Ideal.log1p (Ideal.exp (-(max (v - Ideal.ofBits .f32 0x00000000#32) (-(v - Ideal.ofBits .f32 0x00000000#32))))))

/-- HardSwish plus one half: `h · min 6 (max 0 (h + 3)) · f32(1/6) + 1/2`. -/
def hswish (h : EReal) : EReal :=
  h * min (Ideal.ofBits .f32 0x40C00000#32) (max (Ideal.ofBits .f32 0x00000000#32) (h + Ideal.ofBits .f32 0x40400000#32))
    * Ideal.ofBits .f32 0x3E2AAAAB#32 + Ideal.ofBits .f32 0x3F000000#32

/-- Mish of `v`. -/
def mish (v : EReal) : EReal := v * Ideal.tanh (softplus v)

/-- The pointwise tail, of the product's entry `a` and `y`'s entry. -/
def epi (a y : EReal) : EReal := hswish (mish (leaky a + y))

/-- The product's entry at output index `i` = (b, r, c): `∑ k, x[b, r, k] · w[k, c]`. -/
def dot (x : SX.Idx → EReal) (w : SW.Idx → EReal) (i : SX.Idx) : EReal :=
  ∑ k : Fin 4096, x (ix3 (i 0) (i 1) k) * w (ix2 k (i 2))

/-- THE RESULT, as one function of the three argument arrays. -/
def G (x y : SX.Idx → EReal) (w : SW.Idx → EReal) : SX.Idx → EReal := fun i => epi (dot x w i) (y i)

/-! ## The kernel's spelling of the tail -/

/-- softplus as the kernel's body spells it: the guard an ORDERED comparison, `-|v|` written `0 - |v|`. -/
def softplusK (v : EReal) : EReal :=
  Scalar.select (Ideal.cmp .one (v - Ideal.ofBits .f32 0x00000000#32) (v - Ideal.ofBits .f32 0x00000000#32))
    (v + Ideal.ofBits .f32 0x00000000#32)
    (max v (Ideal.ofBits .f32 0x00000000#32)
      + Ideal.log1p (Ideal.exp (Ideal.ofBits .f32 0x00000000#32
          - max (v - Ideal.ofBits .f32 0x00000000#32) (-(v - Ideal.ofBits .f32 0x00000000#32)))))

/-- Nothing is unordered on the extended reals, and `0 - a = -a`: the two spellings are one function. -/
theorem softplusK_eq (v : EReal) : softplusK v = softplus v := by
  unfold softplusK softplus
  rw [show (Ideal.ofBits .f32 0x00000000#32 : EReal)
        - max (v - Ideal.ofBits .f32 0x00000000#32) (-(v - Ideal.ofBits .f32 0x00000000#32))
      = -(max (v - Ideal.ofBits .f32 0x00000000#32) (-(v - Ideal.ofBits .f32 0x00000000#32))) from by
    rw [Ideal.ofBits_zero_f32, zero_sub]]
  rfl

/-- The pointwise tail as the kernel's body spells it. -/
def epiK (a y : EReal) : EReal := hswish ((leaky a + y) * Ideal.tanh (softplusK (leaky a + y)))

theorem epiK_eq (a y : EReal) : epiK a y = epi a y := by
  unfold epiK epi mish
  rw [softplusK_eq]

/-! ## Eight runs of 512 are the whole contraction -/

/-- A sum over 4096 positions, taken as eight consecutive runs of 512 added up in order from the first, is the sum
    over all positions: in any commutative monoid. -/
theorem sum_runs {M : Type*} [AddCommMonoid M] (f : ℕ → M) :
    ∑ s ∈ Finset.range 8, ∑ q : Fin 512, f (512 * s + q.val) = ∑ k : Fin 4096, f k.val := by
  rw [← Fin.sum_univ_eq_sum_range (fun s => ∑ q : Fin 512, f (512 * s + q.val)) 8]
  rw [← Fintype.sum_prod_type' (fun (s : Fin 8) (q : Fin 512) => f (512 * s.val + q.val))]
  rw [← Equiv.sum_comp (finProdFinEquiv : Fin 8 × Fin 512 ≃ Fin 4096) (fun k => f k.val)]
  refine Finset.sum_congr rfl fun p _ => ?_
  congr 1
  show 512 * p.1.val + p.2.val = p.2.val + 512 * p.1.val
  omega

end Cert.Spec

end
-- ==== Proof.RefValue.lean ====
/-
  The reference's result is `Spec.G` of its arguments.

  The reference is one `dot_general` over the 4096 contracted positions followed by the pointwise tail; read
  one operation at a time at an output index, its last stage is `epi` of the contraction's sum and `y`'s
  entry, which is `G` by definition.  The only work is to name the operand indices of the contraction by
  coordinates: the left operand is read at (b, r, k), the right at (k, c).
-/
import proofs.«131881_j1580547970119_1_alg».proof.Proof.Gen.ReferenceIdeal.Read
import proofs.«131881_j1580547970119_1_alg».proof.Proof.Spec

noncomputable section

namespace Cert.ReferenceIdeal.RefValue

open Cert.ReferenceIdeal Cert.ReferenceIdeal.Read Idealize.ShloMosaic Idealize.ShloMosaic.ValueIdx

/-- The contraction reads `x` at (b, r, k) -/
theorem lidx_eq (i : S4x2048x4096.Idx) (k : Fin 4096) : lidx_main_v0 i k = ix3 (i 0) (i 1) k :=
  funext fun a => Fin.ext (by match a with | ⟨0, _⟩ => rfl | ⟨1, _⟩ => rfl | ⟨2, _⟩ => rfl)

/-- and `w` at (k, c). -/
theorem ridx_eq (i : S4x2048x4096.Idx) (k : Fin 4096) : ridx_main_v0 i k = ix2 k (i 2) :=
  funext fun a => Fin.ext (by match a with | ⟨0, _⟩ => rfl | ⟨1, _⟩ => rfl)

/-- The reference's last stage is `G`: the contraction's sum through the pointwise tail, index by index. -/
theorem val_eq_G (x y : (⟨S4x2048x4096, .f32⟩ : BufTy).Contents (Elt Ideal)) (w : (⟨S4096x4096, .f32⟩ : BufTy).Contents (Elt Ideal)) :
    val_main_v17 (F := Ideal) x y w = Cert.Spec.G x y w := by
  funext i
  simp only [val_main_v17_apply, val_main_v16_apply, val_main_cst_5_apply, val_main_v15_apply, val_main_v14_apply,
    val_main_cst_4_apply, val_main_v13_apply, val_main_v12_apply, val_main_call2_v4_apply, val_main_call2_v3_apply,
    val_main_cst_3_apply, val_main_call2_v2_apply, val_main_call2_v1_apply, val_main_call2_v0_apply, val_main_cst_2_apply,
    val_main_v11_apply, val_main_v10_apply, val_main_cst_1_apply, val_main_v9_apply, val_main_v8_apply, val_main_v7_apply,
    val_main_call1_v11_apply, val_main_call1_v10_apply, val_main_call1_v9_apply, val_main_call1_v8_apply,
    val_main_call1_v7_apply, val_main_call1_v6_apply, val_main_call1_v5_apply, val_main_call1_v4_apply,
    val_main_call1_v3_apply, val_main_call1_v2_apply, val_main_call1_v1_apply, val_main_call1_v0_apply,
    val_main_call1_cst_apply, val_main_v6_apply, val_main_v5_apply, val_main_v4_apply, val_main_v3_apply,
    val_main_cst_0_apply, val_main_v2_apply, val_main_v1_apply, val_main_cst_apply, val_main_v0_apply, lidx_eq, ridx_eq]
  rfl

end Cert.ReferenceIdeal.RefValue

end
-- ==== Proof.Pieces.lean ====
/-
  What each control case of the body leaves behind, as values.

  The body keeps a running block in its scratch: at the first step of a run (k = 0) it stores zeros, reads them
  back and adds the step's block product; at every later step it adds the step's block product to what the
  step before left; at the last step (k = 7) it then also sends the running block through the pointwise tail
  into the output block.  So, whatever the case, the scratch ends at `acc + x_blk · w_blk` (`acc` the zeros
  at k = 0), and at k = 7 the output block is the tail of exactly that sum and the `y` block.
-/
import proofs.«131881_j1580547970119_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First step of a run: the scratch ends at zeros plus the step's block product. -/
theorem scratch_first (c : Dev nD) (i : grid0.Coords) (a4 : Memref sig .tc .vmem S1x512x512 .f32) (h4 : a4.IsWhole) (a5 : Memref sig .tc .vmem S512x1024 .f32) (h5 : a5.IsWhole) (a6 : Memref sig .tc .vmem S1x512x1024 .f32) (h6 : a6.IsWhole) (a7 : Memref sig .tc .vmem S1x512x1024 .f32) (h7 : a7.IsWhole) (a8 : Memref sig .tc .vmem S512x1024 .f32) (h8 : a8.IsWhole) (hc0 : cond0_0 i) (hc1 : ¬cond0_1 i)
    (x0 : Vec F S1x512x512 .f32) (x1 : Vec F S512x1024 .f32) (x2 : Vec F S1x512x1024 .f32) :
    sout0_A_0 c i a4 h4 a5 h5 a6 h6 a7 h7 a8 h8 hc0 hc1 x0 x1 x2 = k0_pay2 x0 x1 (k0_pay1 (F := F)) := by
  unfold sout0_A_0
  rw [View.read_writes_eq_canon _ _ _ (scover0_A_0 c i a4 h4 a5 h5 a6 h6 a7 h7 a8 h8 hc0 hc1 x0 x1 x2)]
  unfold kernelRun0_A
  dsimp only
  sl_unfold_words
  rw [View.canon_cons_unit_zero (S := S512x1024) hz2, View.readCov_unit_zero (S := S512x1024) _ hz2]
  simp only [View.readAt_eq_ld, h4.read_unread, h5.read_unread, View.ld_unit_zero (S := S1x512x512) hz3,
    View.ld_unit_zero (S := S512x1024) hz2]

/-- A middle step: the scratch ends at what the step before left plus the step's block product. -/
theorem scratch_mid (c : Dev nD) (i : grid0.Coords) (a4 : Memref sig .tc .vmem S1x512x512 .f32) (h4 : a4.IsWhole) (a5 : Memref sig .tc .vmem S512x1024 .f32) (h5 : a5.IsWhole) (a6 : Memref sig .tc .vmem S1x512x1024 .f32) (h6 : a6.IsWhole) (a7 : Memref sig .tc .vmem S1x512x1024 .f32) (h7 : a7.IsWhole) (a8 : Memref sig .tc .vmem S512x1024 .f32) (h8 : a8.IsWhole) (hc0 : ¬cond0_0 i) (hc1 : ¬cond0_1 i)
    (x0 : Vec F S1x512x512 .f32) (x1 : Vec F S512x1024 .f32) (x2 : Vec F S1x512x1024 .f32) (xs0 : Vec F S512x1024 .f32) :
    sout0_B_0 c i a4 h4 a5 h5 a6 h6 a7 h7 a8 h8 hc0 hc1 x0 x1 x2 xs0 = k0_pay2 x0 x1 xs0 := by
  unfold sout0_B_0
  rw [View.read_writes_eq_canon _ _ _ (scover0_B_0 c i a4 h4 a5 h5 a6 h6 a7 h7 a8 h8 hc0 hc1 x0 x1 x2 xs0)]
  unfold kernelRun0_B
  dsimp only
  sl_unfold_words
  rw [View.canon_unit_zero hz2]
  simp only [View.readAt_eq_ld, h4.read_unread, h5.read_unread, h8.read_unread, View.ld_unit_zero (S := S1x512x512) hz3,
    View.ld_unit_zero (S := S512x1024) hz2]

/-- The last step: the scratch likewise, -/
theorem scratch_last (c : Dev nD) (i : grid0.Coords) (a4 : Memref sig .tc .vmem S1x512x512 .f32) (h4 : a4.IsWhole) (a5 : Memref sig .tc .vmem S512x1024 .f32) (h5 : a5.IsWhole) (a6 : Memref sig .tc .vmem S1x512x1024 .f32) (h6 : a6.IsWhole) (a7 : Memref sig .tc .vmem S1x512x1024 .f32) (h7 : a7.IsWhole) (a8 : Memref sig .tc .vmem S512x1024 .f32) (h8 : a8.IsWhole) (hc0 : ¬cond0_0 i) (hc1 : cond0_1 i)
    (x0 : Vec F S1x512x512 .f32) (x1 : Vec F S512x1024 .f32) (x2 : Vec F S1x512x1024 .f32) (xs0 : Vec F S512x1024 .f32) :
    sout0_C_0 c i a4 h4 a5 h5 a6 h6 a7 h7 a8 h8 hc0 hc1 x0 x1 x2 xs0 = k0_pay2 x0 x1 xs0 := by
  unfold sout0_C_0
  rw [View.read_writes_eq_canon _ _ _ (scover0_C_0 c i a4 h4 a5 h5 a6 h6 a7 h7 a8 h8 hc0 hc1 x0 x1 x2 xs0)]
  unfold kernelRun0_C
  dsimp only
  sl_unfold_words
  rw [View.canon_unit_zero hz2]
  simp only [View.readAt_eq_ld, h4.read_unread, h5.read_unread, h8.read_unread, View.ld_unit_zero (S := S1x512x512) hz3,
    View.ld_unit_zero (S := S512x1024) hz2]

/-- and the output block is the pointwise tail of that sum and the `y` block. -/
theorem out_last (c : Dev nD) (i : grid0.Coords) (a4 : Memref sig .tc .vmem S1x512x512 .f32) (h4 : a4.IsWhole) (a5 : Memref sig .tc .vmem S512x1024 .f32) (h5 : a5.IsWhole) (a6 : Memref sig .tc .vmem S1x512x1024 .f32) (h6 : a6.IsWhole) (a7 : Memref sig .tc .vmem S1x512x1024 .f32) (h7 : a7.IsWhole) (a8 : Memref sig .tc .vmem S512x1024 .f32) (h8 : a8.IsWhole) (hc0 : ¬cond0_0 i) (hc1 : cond0_1 i)
    (x0 : Vec F S1x512x512 .f32) (x1 : Vec F S512x1024 .f32) (x2 : Vec F S1x512x1024 .f32) (xs0 : Vec F S512x1024 .f32) :
    out0_C_3 c i a4 h4 a5 h5 a6 h6 a7 h7 a8 h8 hc0 hc1 x0 x1 x2 xs0 = k0_pay3 (k0_pay2 x0 x1 xs0) x2 := by
  unfold out0_C_3
  rw [View.read_writes_eq_canon _ _ _ (cover0_C_3 c i a4 h4 a5 h5 a6 h6 a7 h7 a8 h8 hc0 hc1 x0 x1 x2 xs0)]
  unfold kernelRun0_C
  dsimp only
  sl_unfold_words
  rw [View.canon_unit_zero hz3]
  simp only [View.readAt_eq_ld, h4.read_unread, h5.read_unread, h6.read_unread, h8.read_unread,
    View.ld_unit_zero (S := S1x512x512) hz3, View.ld_unit_zero (S := S1x512x1024) hz3,
    View.ld_unit_zero (S := S512x1024) hz2, View.readCov_unit_zero (S := S512x1024) _ hz2]

end Cert.KernelIdeal.Pieces

end
-- ==== Proof.Payload.lean ====
/-
  The body's two arithmetic payloads read at an index, on the extended reals.

  The update of the running block: at (r, c) it is the old entry plus `∑ q < 512, X[0, r, q] · W[q, c]` of the
  step's `x` block `X` (1 × 512 × 512) and `w` block `W` (512 × 1024) — the change of float format in front of
  the matrix product is the identity here, and the product is taken into a zero accumulator.
  The tail: at (0, r, c) it is `epi` of the running block's entry at (r, c) and the `y` block's at (0, r, c).
-/
import proofs.«131881_j1580547970119_1_alg».proof.Proof.Gen.KernelIdeal.Skeleton
import proofs.«131881_j1580547970119_1_alg».proof.Proof.Spec
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The block product's operand indices, axis by axis -/

theorem lhs_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The running block's update at (r, c): the old entry plus the step's 512 products. -/
theorem update_apply (X : Vec Ideal S1x512x512 .f32) (W : Vec Ideal S512x1024 .f32) (A : Vec Ideal S512x1024 .f32)
    (r : Fin 512) (c : Fin 1024) :
    k0_pay2 (F := Ideal) X W A (ix2 r c) = A (ix2 r c) + ∑ q : Fin 512, X (ix3 (0 : Fin 1) r q) * W (ix2 q c) := by
  unfold k0_pay2
  simp only [shapeCast_self]
  rw [addf_apply]
  simp only [matmul]
  rw [Ideal.matmul_constant_zero_apply, ← Equiv.sum_comp (contrEquiv1 dot_S512x512_S512x1024_S512x1024_1_0_0_1_n_n 512 rfl rfl).symm]
  congr 1
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r c) ((contrEquiv1 dot_S512x512_S512x1024_S512x1024_1_0_0_1_n_n 512 rfl rfl).symm k) = ix2 r k := funext fun a => Fin.ext (by
    match a with
    | ⟨0, _⟩ => exact lhs_0 _ _
    | ⟨1, _⟩ => exact (lhs_1 _ _).trans hk)
  have er : dot_S512x512_S512x1024_S512x1024_1_0_0_1_n_n.rhsIdx (ix2 r c) ((contrEquiv1 dot_S512x512_S512x1024_S512x1024_1_0_0_1_n_n 512 rfl rfl).symm k) = ix2 k c := funext fun a => Fin.ext (by
    match a with
    | ⟨0, _⟩ => exact (rhs_0 _ _).trans hk
    | ⟨1, _⟩ => exact rhs_1 _ _)
  rw [el, er, truncf_apply, truncf_apply, shapeCast_1ab_ab_apply]

/-- The tail at (0, r, c): `epi` of the running block's entry and the `y` block's. -/
theorem tail_apply (A : Vec Ideal S512x1024 .f32) (Y : Vec Ideal S1x512x1024 .f32) (r : Fin 512) (c : Fin 1024) :
    k0_pay3 (F := Ideal) A Y (ix3 (0 : Fin 1) r c) = Cert.Spec.epi (A (ix2 r c)) (Y (ix3 (0 : Fin 1) r c)) := by
  unfold k0_pay3
  rw [shapeCast_ab_1ab_apply]
  show Cert.Spec.epiK (A (ix2 r c)) (shapeCast S512x1024 Y shapeCasts_S1x512x1024_S512x1024 (ix2 r c)) = _
  rw [shapeCast_1ab_ab_apply, Cert.Spec.epiK_eq]

end Cert.KernelIdeal.Payload

end
-- ==== Proof.KernelValue.lean ====
/-
  The idealized kernel's result array is `Spec.G` of its argument arrays.

  The grid is 4 × 4 × 4 × 8: batch b, row block i (512 rows), column block j (1024 columns), contraction run s
  (512 positions); the linear point is t = 128 b + 32 i + 8 j + s.  At point t the body sees the `x` block
  (b, i, s), the `w` block (s, j) and the `y` block (b, i, j), and the output block (b, i, j) is written back
  at the run's last point (s = 7) only.

  The scratch after point t is, by the fold over the run t belongs to, zero plus the block products of the
  run's points up to t (`running`); at s = 7 that is all eight, and eight consecutive runs of 512 positions are
  the whole contraction (`Spec.sum_runs`), so the running block's entry (r, c) is the product's entry at
  (b, 512 i + r, 1024 j + c) (`acc_last`).  The output block written back there is the pointwise tail of that
  and the `y` block: block (b, i, j) of `G` (`flushed_eq`).  The blocks written back tile the array
  (`cover`), so the array ends at `G` (`final`).
-/
import proofs.«131881_j1580547970119_1_alg».proof.Proof.Gen.KernelIdeal.Value
import proofs.«131881_j1580547970119_1_alg».proof.Proof.Pieces
import proofs.«131881_j1580547970119_1_alg».proof.Proof.Payload
import proofs.«131881_j1580547970119_1_alg».proof.Proof.Spec
import Idealize.ShloMosaic.Lib.Pipeline.Value

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays and the blocks, at their literal types -/

abbrev xarr (c : Dev nD) : Vec Ideal S4x2048x4096 .f32 := V m c main_arg0
abbrev yarr (c : Dev nD) : Vec Ideal S4x2048x4096 .f32 := V m c main_arg1
abbrev warr (c : Dev nD) : Vec Ideal S4096x4096 .f32 := V m c main_arg2
abbrev xblk (c : Dev nD) (t : Fin cfg0.N) : Vec Ideal S1x512x512 .f32 := iblk m c 0 t
abbrev wblk (c : Dev nD) (t : Fin cfg0.N) : Vec Ideal S512x1024 .f32 := iblk m c 1 t
abbrev yblk (c : Dev nD) (t : Fin cfg0.N) : Vec Ideal S1x512x1024 .f32 := iblk m c 2 t

/-- The printed index maps in closed form, decided once over the 512 points: t = 128 b + 32 i + 8 j + s. -/
theorem idx_facts : ∀ t : Fin cfg0.N,
    win0_0.index t (0 : Fin 3) = t.val / 128 ∧ win0_0.index t (1 : Fin 3) = t.val / 32 % 4 ∧ win0_0.index t (2 : Fin 3) = t.val % 8
    ∧ win0_1.index t (0 : Fin 2) = t.val % 8 ∧ win0_1.index t (1 : Fin 2) = t.val / 8 % 4
    ∧ win0_2.index t (0 : Fin 3) = t.val / 128 ∧ win0_2.index t (1 : Fin 3) = t.val / 32 % 4 ∧ win0_2.index t (2 : Fin 3) = t.val / 8 % 4
    ∧ win0_3.index t (0 : Fin 3) = t.val / 128 ∧ win0_3.index t (1 : Fin 3) = t.val / 32 % 4 ∧ win0_3.index t (2 : Fin 3) = t.val / 8 % 4 :=
  (by decide +kernel : ∀ t : Fin grid0.N, _)

/-- The `x` block at point t, entry (0, r, q), is `x` at (b, 512 i + r, 512 s + q). -/
theorem xblk_apply (c : Dev nD) (t : Fin cfg0.N) (r q : Fin 512) (i : S4x2048x4096.Idx)
    (h0 : (i 0).val = t.val / 128) (h1 : (i 1).val = 512 * (t.val / 32 % 4) + r.val) (h2 : (i 2).val = 512 * (t.val % 8) + q.val) :
    xblk m c t (ix3 (0 : Fin 1) r q) = xarr m c i := by
  obtain ⟨e0, e1, e2, -⟩ := idx_facts t
  show iblk m c 0 t (ix3 (0 : Fin 1) r q) = _
  unfold iblk
  rw [View.read_apply]
  show V m c main_arg0 _ = V m c main_arg0 i
  congr 1
  funext a
  apply Fin.ext
  match a with
  | ⟨0, _⟩ => show win0_0.index t (0 : Fin 3) * 1 + 1 * 0 = (i 0).val; omega
  | ⟨1, _⟩ => show win0_0.index t (1 : Fin 3) * 512 + 1 * r.val = (i 1).val; omega
  | ⟨2, _⟩ => show win0_0.index t (2 : Fin 3) * 512 + 1 * q.val = (i 2).val; omega

/-- The `w` block at point t, entry (q, cc), is `w` at (512 s + q, 1024 j + cc). -/
theorem wblk_apply (c : Dev nD) (t : Fin cfg0.N) (q : Fin 512) (cc : Fin 1024) (i : S4096x4096.Idx)
    (h0 : (i 0).val = 512 * (t.val % 8) + q.val) (h1 : (i 1).val = 1024 * (t.val / 8 % 4) + cc.val) :
    wblk m c t (ix2 q cc) = warr m c i := by
  obtain ⟨-, -, -, e0, e1, -⟩ := idx_facts t
  show iblk m c 1 t (ix2 q cc) = _
  unfold iblk
  rw [View.read_apply]
  show V m c main_arg2 _ = V m c main_arg2 i
  congr 1
  funext a
  apply Fin.ext
  match a with
  | ⟨0, _⟩ => show win0_1.index t (0 : Fin 2) * 512 + 1 * q.val = (i 0).val; omega
  | ⟨1, _⟩ => show win0_1.index t (1 : Fin 2) * 1024 + 1 * cc.val = (i 1).val; omega

/-- The `y` block at point t, entry (0, r, cc), is `y` at (b, 512 i + r, 1024 j + cc). -/
theorem yblk_apply (c : Dev nD) (t : Fin cfg0.N) (r : Fin 512) (cc : Fin 1024) (i : S4x2048x4096.Idx)
    (h0 : (i 0).val = t.val / 128) (h1 : (i 1).val = 512 * (t.val / 32 % 4) + r.val) (h2 : (i 2).val = 1024 * (t.val / 8 % 4) + cc.val) :
    yblk m c t (ix3 (0 : Fin 1) r cc) = yarr m c i := by
  obtain ⟨-, -, -, -, -, e0, e1, e2, -⟩ := idx_facts t
  show iblk m c 2 t (ix3 (0 : Fin 1) r cc) = _
  unfold iblk
  rw [View.read_apply]
  show V m c main_arg1 _ = V m c main_arg1 i
  congr 1
  funext a
  apply Fin.ext
  match a with
  | ⟨0, _⟩ => show win0_2.index t (0 : Fin 3) * 1 + 1 * 0 = (i 0).val; omega
  | ⟨1, _⟩ => show win0_2.index t (1 : Fin 3) * 512 + 1 * r.val = (i 1).val; omega
  | ⟨2, _⟩ => show win0_2.index t (2 : Fin 3) * 1024 + 1 * cc.val = (i 2).val; omega

/-! ## The running block -/

/-- The block product of point n's `x` and `w` blocks at an entry of the running block (zero past the grid: never used). -/
def addend (c : Dev nD) (n : ℕ) (j : S512x1024.Idx) : EReal :=
  if h : n < cfg0.N then ∑ q : Fin 512, xblk m c ⟨n, h⟩ (ix3 (0 : Fin 1) (j 0) q) * wblk m c ⟨n, h⟩ (ix2 q (j 1)) else 0

/-- The reset stores zeros. -/
theorem zeros_apply (j : S512x1024.Idx) : k0_pay1 (F := Ideal) j = 0 := by
  unfold k0_pay1
  simp only [shapeCast_self]
  exact Ideal.ofBits_zero_f32

/-- The update at point n adds the point's block product, entry by entry. -/
theorem upd (c : Dev nD) (n : ℕ) (hb : n < cfg0.N) (acc : Vec Ideal S512x1024 .f32) (j : S512x1024.Idx) :
    k0_pay2 (F := Ideal) (xblk m c ⟨n, hb⟩) (wblk m c ⟨n, hb⟩) acc j = acc j + addend m c n j := by
  obtain ⟨r, cc, rfl⟩ : ∃ (r : Fin 512) (cc : Fin 1024), j = ix2 r cc := ⟨j 0, j 1, eq_ix2 j⟩
  refine (Payload.update_apply (xblk m c ⟨n, hb⟩) (wblk m c ⟨n, hb⟩) acc r cc).trans ?_
  unfold addend
  rw [dif_pos hb]

/-- At a run's first point the scratch is left at zeros plus the point's block product, whatever it held. -/
theorem reset_apply (c : Dev nD) (n : ℕ) (hb : n < cfg0.N) (h0 : n % 8 = 0) (acc : Vec Ideal S512x1024 .f32) (j : S512x1024.Idx) :
    Value.scAt0_0 m c n hb acc j = k0_pay1 (F := Ideal) j + addend m c n j := by
  have h1 : ¬n % 8 = 7 := by omega
  unfold Value.scAt0_0
  rw [dif_pos h0, dif_neg h1]
  refine (congrFun (Pieces.scratch_first c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) ((hcond0_0 ⟨n, hb⟩).mpr h0) (fun h => h1 ((hcond0_1 ⟨n, hb⟩).mp h)) (xblk m c ⟨n, hb⟩) (wblk m c ⟨n, hb⟩) (yblk m c ⟨n, hb⟩)) j).trans ?_
  exact upd m c n hb _ j

/-- At every later point of the run it is left at what the point before left plus the point's block product. -/
theorem step_apply (c : Dev nD) (n : ℕ) (hb : n < cfg0.N) (h0 : ¬n % 8 = 0) (acc : Vec Ideal S512x1024 .f32) (j : S512x1024.Idx) :
    Value.scAt0_0 m c n hb acc j = acc j + addend m c n j := by
  unfold Value.scAt0_0
  rw [dif_neg h0]
  by_cases h1 : n % 8 = 7
  · rw [dif_pos h1]
    refine (congrFun (Pieces.scratch_last c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) (fun h => h0 ((hcond0_0 ⟨n, hb⟩).mp h)) ((hcond0_1 ⟨n, hb⟩).mpr h1) (xblk m c ⟨n, hb⟩) (wblk m c ⟨n, hb⟩) (yblk m c ⟨n, hb⟩) acc) j).trans ?_
    exact upd m c n hb acc j
  · rw [dif_neg h1]
    refine (congrFun (Pieces.scratch_mid c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) (fun h => h0 ((hcond0_0 ⟨n, hb⟩).mp h)) (fun h => h1 ((hcond0_1 ⟨n, hb⟩).mp h)) (xblk m c ⟨n, hb⟩) (wblk m c ⟨n, hb⟩) (yblk m c ⟨n, hb⟩) acc) j).trans ?_
    exact upd m c n hb acc j

/-- THE SCRATCH AFTER POINT t: the block products of its run's points up to t, summed. -/
theorem running (c : Dev nD) (t : Fin cfg0.N) (j : S512x1024.Idx) :
    (outsAt0 m c t.val t.isLt).2 j = ∑ s ∈ Finset.range (t.val % 8 + 1), addend m c (8 * (t.val / 8) + s) j := by
  rw [Value.soutsAt0_0_eq m c t]
  have hN : cfg0.N = 512 := N_0
  have key := Pipeline.accAt_add_apply (N := cfg0.N)
    (fun n h => Value.scAt0_0 m c n h (VS0_0.read (Elt Ideal) VS0_0.junk)) (Value.scAt0_0 m c)
    (k0_pay1 (F := Ideal)) (addend m c) (8 * (t.val / 8)) 7
    (fun h i => reset_apply m c _ h (by omega) _ i)
    (fun n h acc i hlt hle => step_apply m c n h (by omega) acc i)
    (t.val % 8) (by omega) (by have := t.isLt; omega) j
  rw [key, zeros_apply, zero_add]

/-- At a run's last point the running block's entry (r, cc) is the product's entry at (b, 512 i + r, 1024 j + cc):
    eight consecutive runs of 512 positions are the whole contraction. -/
theorem acc_last (c : Dev nD) (t : Fin cfg0.N) (ht : t.val % 8 = 7) (r : Fin 512) (cc : Fin 1024) (i : S4x2048x4096.Idx)
    (h0 : (i 0).val = t.val / 128) (h1 : (i 1).val = 512 * (t.val / 32 % 4) + r.val) (h2 : (i 2).val = 1024 * (t.val / 8 % 4) + cc.val) :
    (outsAt0 m c t.val t.isLt).2 (ix2 r cc) = Cert.Spec.dot (xarr m c) (warr m c) i := by
  rw [running, ht]
  unfold Cert.Spec.dot
  have hN : cfg0.N = 512 := N_0
  have htlt := t.isLt
  let f : ℕ → EReal := fun k => if h : k < 4096 then xarr m c (ix3 (i 0) (i 1) ⟨k, h⟩) * warr m c (ix2 ⟨k, h⟩ (i 2)) else 0
  have hR : ∑ k : Fin 4096, xarr m c (ix3 (i 0) (i 1) k) * warr m c (ix2 k (i 2)) = ∑ k : Fin 4096, f k.val :=
    Finset.sum_congr rfl fun k _ => by simp only [f, dif_pos k.isLt]
  rw [hR, ← Cert.Spec.sum_runs f]
  refine Finset.sum_congr rfl fun s hs => ?_
  have hs8 : s < 8 := Finset.mem_range.mp hs
  have hb : 8 * (t.val / 8) + s < cfg0.N := by omega
  unfold addend
  rw [dif_pos hb]
  refine Finset.sum_congr rfl fun q _ => ?_
  have hq := q.isLt
  have hk : 512 * s + q.val < 4096 := by omega
  simp only [f, dif_pos hk]
  exact congrArg₂ (· * ·)
    (xblk_apply m c ⟨8 * (t.val / 8) + s, hb⟩ r q (ix3 (i 0) (i 1) ⟨512 * s + q.val, hk⟩)
      (by show (i 0).val = (8 * (t.val / 8) + s) / 128; omega)
      (by show (i 1).val = 512 * ((8 * (t.val / 8) + s) / 32 % 4) + r.val; omega)
      (by show 512 * s + q.val = 512 * ((8 * (t.val / 8) + s) % 8) + q.val; omega))
    (wblk_apply m c ⟨8 * (t.val / 8) + s, hb⟩ q cc (ix2 ⟨512 * s + q.val, hk⟩ (i 2))
      (by show 512 * s + q.val = 512 * ((8 * (t.val / 8) + s) % 8) + q.val; omega)
      (by show (i 2).val = 1024 * ((8 * (t.val / 8) + s) / 8 % 4) + cc.val; omega))

/-! ## The result array -/

/-- What the result array ends holding. -/
abbrev result (c : Dev nD) : Vec Ideal S4x2048x4096 .f32 := Cert.Spec.G (xarr m c) (yarr m c) (warr m c)

/-- Two contents of an output block agree if they agree at every (0, r, cc). -/
theorem blk_ext (f g : Vec Ideal S1x512x1024 .f32) (h : ∀ (r : Fin 512) (cc : Fin 1024), f (ix3 (0 : Fin 1) r cc) = g (ix3 (0 : Fin 1) r cc)) :
    f = g := by
  funext y
  obtain ⟨u, r, cc, rfl⟩ : ∃ (u : Fin 1) (r : Fin 512) (cc : Fin 1024), y = ix3 u r cc := ⟨y 0, y 1, y 2, eq_ix3 y⟩
  obtain rfl : u = 0 := Subsingleton.elim _ _
  exact h r cc

/-- WHAT A RUN'S LAST POINT WRITES BACK is its block of `G`: the tail of the whole contraction's entry and `y`'s. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have h0 : ¬t.val % 8 = 0 := by omega
  have hsc : (outsAt0 m c t.val t.isLt).2
      = k0_pay2 (F := Ideal) (xblk m c t) (wblk m c t) (outsAt0 m c (t.val - 1) (Nat.lt_of_le_of_lt (Nat.sub_le _ _) t.isLt)).2 := by
    rw [outsAt0_C m c t h0 h7]
    dsimp only
    exact Pieces.scratch_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (xblk m c t) (wblk m c t) (yblk m c t) _
  rw [Value.flushed3_C m c t h0 h7,
    Pieces.out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (xblk m c t) (wblk m c t) (yblk m c t)
      (outsAt0 m c (t.val - 1) (Nat.lt_of_le_of_lt (Nat.sub_le _ _) t.isLt)).2,
    ← hsc]
  obtain ⟨-, -, -, -, -, -, -, -, e0, e1, e2⟩ := idx_facts t
  refine blk_ext _ _ fun r cc => ?_
  show k0_pay3 (F := Ideal) (outsAt0 m c t.val t.isLt).2 (yblk m c t) (ix3 (0 : Fin 1) r cc)
    = result m c (((cfg0.win 3).blk t).view.emb (ix3 (0 : Fin 1) r cc))
  refine (Payload.tail_apply (outsAt0 m c t.val t.isLt).2 (yblk m c t) r cc).trans ?_
  exact congrArg₂ Cert.Spec.epi
    (acc_last m c t h7 r cc (((cfg0.win 3).blk t).view.emb (ix3 (0 : Fin 1) r cc))
      (by show win0_3.index t (0 : Fin 3) * 1 + 1 * 0 = _; omega)
      (by show win0_3.index t (1 : Fin 3) * 512 + 1 * r.val = _; omega)
      (by show win0_3.index t (2 : Fin 3) * 1024 + 1 * cc.val = _; omega))
    (yblk_apply m c t r cc (((cfg0.win 3).blk t).view.emb (ix3 (0 : Fin 1) r cc))
      (by show win0_3.index t (0 : Fin 3) * 1 + 1 * 0 = _; omega)
      (by show win0_3.index t (1 : Fin 3) * 512 + 1 * r.val = _; omega)
      (by show win0_3.index t (2 : Fin 3) * 1024 + 1 * cc.val = _; omega))

/-- The blocks written back tile the array: (b, r, cc) lies in the block of the point (b, r / 512, cc / 1024, 7). -/
theorem cover (i : S4x2048x4096.Idx) :
    ∃ t : Fin cfg0.N, (cfg0.win 3).flush t = true ∧ i ∈ ((cfg0.win 3).blk t).view.set := by
  have hN : cfg0.N = 512 := N_0
  have i0 : (i 0).val < 4 := (i 0).isLt
  have i1 : (i 1).val < 2048 := (i 1).isLt
  have i2 : (i 2).val < 4096 := (i 2).isLt
  obtain ⟨tv, htv⟩ : ∃ tv, tv = 128 * (i 0).val + 32 * ((i 1).val / 512) + 8 * ((i 2).val / 1024) + 7 := ⟨_, rfl⟩
  have hlt : tv < cfg0.N := by omega
  obtain ⟨-, -, -, -, -, -, -, -, e0, e1, e2⟩ := idx_facts ⟨tv, hlt⟩
  have e0' : win0_3.index ⟨tv, hlt⟩ (0 : Fin 3) = tv / 128 := e0
  have e1' : win0_3.index ⟨tv, hlt⟩ (1 : Fin 3) = tv / 32 % 4 := e1
  have e2' : win0_3.index ⟨tv, hlt⟩ (2 : Fin 3) = tv / 8 % 4 := e2
  refine ⟨⟨tv, hlt⟩, (flush0_3 _).mpr (by show tv % 8 = 7; omega), ?_⟩
  show i ∈ ((View.whole main_v0).slice (win0_3.rect ⟨tv, hlt⟩)).set
  rw [View.set_slice_whole, Rect.mem_set_unit]
  intro a
  match a with
  | ⟨0, _⟩ =>
    show win0_3.index ⟨tv, hlt⟩ (0 : Fin 3) * 1 ≤ (i 0).val ∧ (i 0).val < win0_3.index ⟨tv, hlt⟩ (0 : Fin 3) * 1 + 1
    omega
  | ⟨1, _⟩ =>
    show win0_3.index ⟨tv, hlt⟩ (1 : Fin 3) * 512 ≤ (i 1).val ∧ (i 1).val < win0_3.index ⟨tv, hlt⟩ (1 : Fin 3) * 512 + 512
    omega
  | ⟨2, _⟩ =>
    show win0_3.index ⟨tv, hlt⟩ (2 : Fin 3) * 1024 ≤ (i 2).val ∧ (i 2).val < win0_3.index ⟨tv, hlt⟩ (2 : Fin 3) * 1024 + 1024
    omega

/-- So the result array ends at `G` of the argument arrays. -/
theorem final (c : Dev nD) : (dats m 0 c).arrAt 3 cfg0.N = result m c :=
  (dats m 0 c).arrAt_eq_of_cover 3 (result m c) (flushed_eq m c) cover

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.lean ====
/-
  The certificate of a fused matmul with a pointwise tail, against its jnp reference.

  The kernel computes, for x : f32[4, 2048, 4096], y : f32[4, 2048, 4096], w : f32[4096, 4096],

      out[b, r, c] = epi (∑ k < 4096, x[b, r, k] · w[k, c]) (y[b, r, c]),

  `epi` being LeakyReLU(0.01), the addition of y, Mish and HardSwish plus one half (`Spec.epi`).  It tiles the
  output in 512 × 1024 blocks and walks the contraction in eight runs of 512 positions, keeping the partial sums
  in a scratch block that it zeroes at a run's first step and sends through the tail at its last; the operands
  are narrowed to bf16 in front of the matrix unit.  The reference is one `einsum` and the same tail.

  On the extended reals the narrowing is the identity, the kernel's block product into a zero accumulator and
  the reference's `dot_general` are the same finite sum of products, and addition is commutative and
  associative, so the eight partial sums are the whole sum: both programs end at `Spec.G` of their arguments
  (`KernelValue.run` for the kernel; the generated run of the reference read one operation at a time,
  `RefValue.val_eq_G`).  No step uses that the inputs are finite.  The frames of the two kernel programs are the
  generated ones; the reference's is its run with the result dropped; the ideal pass rewrote nothing, so
  `preserves` has nothing to say.
-/
import proofs.«131881_j1580547970119_1_alg».proof.Defs
import proofs.«131881_j1580547970119_1_alg».proof.Proof.Gen.Kernel
import proofs.«131881_j1580547970119_1_alg».proof.Proof.Gen.Kernel.Skeleton
import proofs.«131881_j1580547970119_1_alg».proof.Proof.Gen.Kernel.Launch
import proofs.«131881_j1580547970119_1_alg».proof.Proof.Gen.Kernel.Points
import proofs.«131881_j1580547970119_1_alg».proof.Proof.Gen.Kernel.Frame
import proofs.«131881_j1580547970119_1_alg».proof.Proof.Gen.KernelIdeal
import proofs.«131881_j1580547970119_1_alg».proof.Proof.Gen.KernelIdeal.Skeleton
import proofs.«131881_j1580547970119_1_alg».proof.Proof.Gen.KernelIdeal.Launch
import proofs.«131881_j1580547970119_1_alg».proof.Proof.Gen.KernelIdeal.Points
import proofs.«131881_j1580547970119_1_alg».proof.Proof.Gen.KernelIdeal.Frame
import proofs.«131881_j1580547970119_1_alg».proof.Proof.Gen.ReferenceIdeal
import proofs.«131881_j1580547970119_1_alg».proof.Proof.Gen.Pre_finite_inputs
import proofs.«131881_j1580547970119_1_alg».proof.Proof.Gen.KernelIdeal.Value
import proofs.«131881_j1580547970119_1_alg».proof.Proof.Gen.ReferenceIdeal.Run
import proofs.«131881_j1580547970119_1_alg».proof.Proof.Gen.ReferenceIdeal.Read
import proofs.«131881_j1580547970119_1_alg».proof.Proof.Spec
import proofs.«131881_j1580547970119_1_alg».proof.Proof.RefValue
import proofs.«131881_j1580547970119_1_alg».proof.Proof.KernelValue
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference's run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at `G` of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.val_eq_G, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
